-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x128 : Shape := ⟨2, ![1048576, 128]⟩
abbrev S_ : Shape := ⟨0, ![]⟩

class Facts : Prop where
  bcast_S_S1048576x128 : S_.BroadcastsInDim S1048576x128 (![] : Fin 0 → Fin S1048576x128.rank)
  reducesTo_S1048576x128_S_d0_1 : S1048576x128.ReducesTo [0, 1] S_
  h_S_ : 0 < S_.numel

variable [Facts]

def fn {F : FTy → Type} [FloatOps F] (main_arg0 : FVec F S1048576x128 .f32) (main_arg1 : FVec F S1048576x128 .f32) : IVec S_ 1 :=
  let main_v0 : FVec F S1048576x128 .f32 := Host.absf main_arg0
  let main_cst : FVec F S_ .f32 := constant S_ .f32 0x7F800000#32
  let main_v1 : FVec F S1048576x128 .f32 := broadcastInDim S1048576x128 ![] bcast_S_S1048576x128 main_cst
  let main_v2 : IVec S1048576x128 1 := cmpf .olt main_v0 main_v1
  let main_c : IVec S_ 1 := constantI S_ 1 1#1
  let main_v3 : IVec S_ 1 := (fun x v => Host.reduce IntOp.andi x v reducesTo_S1048576x128_S_d0_1 h_S_) main_v2 main_c
  let main_v4 : FVec F S1048576x128 .f32 := Host.absf main_arg1
  let main_cst_0 : FVec F S_ .f32 := constant S_ .f32 0x7F800000#32
  let main_v5 : FVec F S1048576x128 .f32 := broadcastInDim S1048576x128 ![] bcast_S_S1048576x128 main_cst_0
  let main_v6 : IVec S1048576x128 1 := cmpf .olt main_v4 main_v5
  let main_c_1 : IVec S_ 1 := constantI S_ 1 1#1
  let main_v7 : IVec S_ 1 := (fun x v => Host.reduce IntOp.andi x v reducesTo_S1048576x128_S_d0_1 h_S_) main_v6 main_c_1
  let main_v8 : IVec S_ 1 := andi main_v3 main_v7
  main_v8
-- ==== Kernel.lean ====
abbrev S1048576x128 : Shape := ⟨2, ![1048576, 128]⟩
abbrev S1x1 : Shape := ⟨2, ![1, 1]⟩
abbrev S8192x128 : Shape := ⟨2, ![8192, 128]⟩
abbrev S8192 : Shape := ⟨1, ![8192]⟩
abbrev S8192x1 : Shape := ⟨2, ![8192, 1]⟩
abbrev S1 : Shape := ⟨1, ![1]⟩
abbrev S_ : Shape := ⟨0, ![]⟩

abbrev nBuf : Space → Nat
  | .hbm => 6
  | .vmem => 6
  | .smem => 0
  | _ => 0

abbrev bufTy : (tb : Table) → Fin (tcTables nBuf tb) → BufTy
  | .hbm, ⟨0, _⟩ => ⟨S1048576x128, .f32⟩
  | .hbm, ⟨1, _⟩ => ⟨S1048576x128, .f32⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S1x1, .f32⟩
  | .local _ .vmem, ⟨5, _⟩ => ⟨S1x1, .f32⟩
  | _, _ => ⟨S1048576x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![128], ![false]⟩

def k0_cond2 (i : grid0.Coords) : BitVec 1 :=
  let arg0 : BitVec 32 := BitVec.ofNat 32 (i 0).val
  let c127_i32 : BitVec 32 := 127#32
  let v29 : BitVec 1 := Scalar.cmpi .eq arg0 c127_i32
  let v30 : BitVec 32 := Scalar.extui v29
  let c0_i32_13 : BitVec 32 := 0#32
  let v31 : BitVec 1 := Scalar.cmpi .ne v30 c0_i32_13
  v31

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8192x128_S8192x128_0_0 : ∀ a, (![0, 0] : Fin 2 → Nat) a + S8192x128.size a ≤ S8192x128.size a
  h_S8192x128 : 0 < S8192x128.numel
  reduces_S8192x128_S8192 : S8192x128.Reduces [1] S8192
  shapeCasts_S8192_S8192x1 : S8192.ShapeCasts S8192x1
  reduces_S8192x1_S1 : S8192x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S1048576x128.size a
  hwx0_0 : ∀ i : grid0.Coords, EltTy.bits .f32 = 32 ∨ (Rect.block (s := S1048576x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S1048576x128.size a
  hwx0_1 : ∀ i : grid0.Coords, EltTy.bits .f32 = 32 ∨ (Rect.block (s := S1048576x128) S8192x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S1048576x128 : Shape := ⟨2, ![1048576, 128]⟩
abbrev S_ : Shape := ⟨0, ![]⟩
abbrev S1048576 : Shape := ⟨1, ![1048576]⟩
abbrev S1048576x1 : Shape := ⟨2, ![1048576, 1]⟩

abbrev nBuf : Space → Nat
  | .hbm => 29
  | .vmem => 0
  | .smem => 0
  | _ => 0

abbrev bufTy : (tb : Table) → Fin (tcTables nBuf tb) → BufTy
  | .hbm, ⟨0, _⟩ => ⟨S1048576x128, .f32⟩
  | .hbm, ⟨1, _⟩ => ⟨S1048576x128, .f32⟩
  | .hbm, ⟨2, _⟩ => ⟨S1048576x128, .f32⟩
  | .hbm, ⟨3, _⟩ => ⟨S_, .f32⟩
  | .hbm, ⟨4, _⟩ => ⟨S1048576, .f32⟩
  | .hbm, ⟨5, _⟩ => ⟨S1048576x1, .f32⟩
  | .hbm, ⟨6, _⟩ => ⟨S1048576x1, .f32⟩
  | .hbm, ⟨7, _⟩ => ⟨S_, .f32⟩
  | .hbm, ⟨8, _⟩ => ⟨S1048576x1, .f32⟩
  | .hbm, ⟨9, _⟩ => ⟨S1048576x1, .f32⟩
  | .hbm, ⟨10, _⟩ => ⟨S1048576x128, .f32⟩
  | .hbm, ⟨11, _⟩ => ⟨S_, .f32⟩
  | .hbm, ⟨12, _⟩ => ⟨S1048576, .f32⟩
  | .hbm, ⟨13, _⟩ => ⟨S1048576x1, .f32⟩
  | .hbm, ⟨14, _⟩ => ⟨S1048576x1, .f32⟩
  | .hbm, ⟨15, _⟩ => ⟨S_, .f32⟩
  | .hbm, ⟨16, _⟩ => ⟨S1048576x1, .f32⟩
  | .hbm, ⟨17, _⟩ => ⟨S1048576x1, .f32⟩
  | .hbm, ⟨18, _⟩ => ⟨S1048576x128, .f32⟩
  | .hbm, ⟨19, _⟩ => ⟨S1048576x128, .f32⟩
  | .hbm, ⟨20, _⟩ => ⟨S1048576x128, .f32⟩
  | .hbm, ⟨21, _⟩ => ⟨S1048576x128, .f32⟩
  | .hbm, ⟨22, _⟩ => ⟨S1048576x128, .f32⟩
  | .hbm, ⟨23, _⟩ => ⟨S_, .f32⟩
  | .hbm, ⟨24, _⟩ => ⟨S1048576, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | _, _ => ⟨S1048576x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_call1_v0 : Ref sig .tc := ⟨.hbm, 10, rfl⟩
abbrev main_call1_cst : Ref sig .tc := ⟨.hbm, 11, rfl⟩
abbrev main_call1_v1 : Ref sig .tc := ⟨.hbm, 12, rfl⟩
abbrev main_call1_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩

abbrev nD : Nat := 1
abbrev τ : Topo := Topo.v7x

variable {F : FTy → Type} [FloatOps F]

class Facts₀ : Prop where
  reducesTo_S1048576x128_S1048576_d1 : S1048576x128.ReducesTo [1] S1048576
  h_S_ : 0 < S_.numel
  bcast_S1048576_S1048576x1_0 : S1048576.BroadcastsInDim S1048576x1 (![0] : Fin 1 → Fin S1048576x1.rank)
  bcast_S_S1048576x1 : S_.BroadcastsInDim S1048576x1 (![] : Fin 0 → Fin S1048576x1.rank)
  bcast_S1048576x1_S1048576x128_0_1 : S1048576x1.BroadcastsInDim S1048576x128 (![0, 1] : Fin 2 → Fin S1048576x128.rank)
  reducesTo_S1048576_S_d0 : S1048576.ReducesTo [0] S_

variable [Facts₀]

class Facts : Prop extends Facts₀ where

variable [Facts]
-- ==== Proof.KernelPieces.lean ====
/-
  What each control case of the kernel body leaves behind, as values. The body keeps a one-entry running total in a
  scratch buffer. At the first grid point it stores zero there, reads it back and stores `payload a b 0`; at every
  later point it reads the total `s` the point before left and stores `payload a b s`; at the last point it also
  copies the new total into the output block. Here `payload a b s` is the body's arithmetic on the point's two input
  blocks and the total it read. Each buffer is written through one whole-buffer store (at the first point two, the
  later covering the earlier), so what it holds afterwards is that store's value.
-/
import proofs.«110248_j74002286510639_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen
open Idealize.ShloMosaic Idealize.ShloMosaic.TcCoe Idealize.SL.Sem

variable {F : FTy → Type} [FloatOps F]

theorem hz : (![0, 0] : Fin 2 → Nat) = fun _ => 0 := funext fun a => by fin_cases a <;> rfl

/-- The first point's scratch: the payload of the two blocks over the zero the reset stored. -/
theorem sout_A (c : Dev nD) (i : grid0.Coords) (a1 : Memref sig .tc .vmem S8192x128 .f32) (h1 : a1.IsWhole)
    (a2 : Memref sig .tc .vmem S8192x128 .f32) (h2 : a2.IsWhole) (a3 : Memref sig .tc .vmem S1x1 .f32) (h3 : a3.IsWhole)
    (a4 : Memref sig .tc .vmem S1x1 .f32) (h4 : a4.IsWhole) (hc0 : cond0_0 i) (hc1 : ¬cond0_1 i)
    (x0 x1 : Vec F S8192x128 .f32) :
    sout0_A_0 c i a1 h1 a2 h2 a3 h3 a4 h4 hc0 hc1 x0 x1 = k0_pay2 x0 x1 (k0_pay1 (F := F)) := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S8192x128) hz]

/-- A middle point's scratch: the payload of the two blocks over the total the point before left. -/
theorem sout_B (c : Dev nD) (i : grid0.Coords) (a1 : Memref sig .tc .vmem S8192x128 .f32) (h1 : a1.IsWhole)
    (a2 : Memref sig .tc .vmem S8192x128 .f32) (h2 : a2.IsWhole) (a3 : Memref sig .tc .vmem S1x1 .f32) (h3 : a3.IsWhole)
    (a4 : Memref sig .tc .vmem S1x1 .f32) (h4 : a4.IsWhole) (hc0 : ¬cond0_0 i) (hc1 : ¬cond0_1 i)
    (x0 x1 : Vec F S8192x128 .f32) (xs0 : Vec F S1x1 .f32) :
    sout0_B_0 c i a1 h1 a2 h2 a3 h3 a4 h4 hc0 hc1 x0 x1 xs0 = k0_pay2 x0 x1 xs0 := by
  unfold sout0_B_0
  rw [View.read_writes_eq_canon _ _ _ (scover0_B_0 c i a1 h1 a2 h2 a3 h3 a4 h4 hc0 hc1 x0 x1 xs0)]
  unfold kernelRun0_B
  dsimp only
  sl_unfold_words
  rw [View.canon_unit_zero hz]
  simp only [View.readAt_eq_ld, h1.read_unread, h2.read_unread, h4.read_unread, View.ld_unit_zero (S := S8192x128) hz,
    View.ld_unit_zero (S := S1x1) hz]

/-- The last point's scratch: the same payload. -/
theorem sout_C (c : Dev nD) (i : grid0.Coords) (a1 : Memref sig .tc .vmem S8192x128 .f32) (h1 : a1.IsWhole)
    (a2 : Memref sig .tc .vmem S8192x128 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S8192x128 .f32) (xs0 : Vec F S1x1 .f32) :
    sout0_C_0 c i a1 h1 a2 h2 a3 h3 a4 h4 hc0 hc1 x0 x1 xs0 = k0_pay2 x0 x1 xs0 := by
  unfold sout0_C_0
  rw [View.read_writes_eq_canon _ _ _ (scover0_C_0 c i a1 h1 a2 h2 a3 h3 a4 h4 hc0 hc1 x0 x1 xs0)]
  unfold kernelRun0_C
  dsimp only
  sl_unfold_words
  rw [View.canon_unit_zero hz]
  simp only [View.readAt_eq_ld, h1.read_unread, h2.read_unread, h4.read_unread, View.ld_unit_zero (S := S8192x128) hz,
    View.ld_unit_zero (S := S1x1) hz]

/-- The last point's output block: the new total, read back from the scratch and stored whole. -/
theorem out_C (c : Dev nD) (i : grid0.Coords) (a1 : Memref sig .tc .vmem S8192x128 .f32) (h1 : a1.IsWhole)
    (a2 : Memref sig .tc .vmem S8192x128 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S8192x128 .f32) (xs0 : Vec F S1x1 .f32) :
    out0_C_2 c i a1 h1 a2 h2 a3 h3 a4 h4 hc0 hc1 x0 x1 xs0 = k0_pay2 x0 x1 xs0 := by
  unfold out0_C_2
  rw [View.read_writes_eq_canon _ _ _ (cover0_C_2 c i a1 h1 a2 h2 a3 h3 a4 h4 hc0 hc1 x0 x1 xs0)]
  unfold kernelRun0_C
  dsimp only
  sl_unfold_words
  rw [View.canon_unit_zero hz, View.readCov_unit_zero (S := S1x1) _ hz]
  simp only [View.readAt_eq_ld, h1.read_unread, h2.read_unread, h4.read_unread, View.ld_unit_zero (S := S8192x128) hz,
    View.ld_unit_zero (S := S1x1) hz]

end Cert.KernelIdeal.Pieces

end
-- ==== Proof.LibIdealSums.lean ====
/-
  General lemmas about sums over the extended reals and over shapes' index sets, with no program in them:

  * `coe_sum`: a finite sum of reals read in the extended reals is the sum of the terms read there;
  * `div_congr_left`: the ideal quotient is a function of its numerator;
  * `sum_blocks`, `sum_blocks'`: a sum over `m · n` consecutive items is the sum over `m` blocks of `n`;
  * `running`, `running_eq_sum`: a total accumulated block by block from `0 + g 0` is the sum of the contributions;
  * `idxEquiv1`, `sum_idx1`: a sum over a rank-1 index set is the sum over its coordinate;
  * `shapeCast_a_a1_apply`: a vector re-laid as a one-column matrix (a reduction that keeps its axis) reads the same entry.
-/
import Idealize.ShloMosaic.PureOps.Ideal
import Idealize.ShloMosaic.Lib.ValueIdx
import Idealize.ShloMosaic.Lib.ValueLayout

noncomputable section

namespace Cert.Lib

open Idealize.ShloMosaic Idealize.ShloMosaic.ValueIdx

/-- Quotients of equal numerators by one denominator are equal. -/
theorem div_congr_left {a b : EReal} (c : EReal) (h : a = b) : Ideal.div a c = Ideal.div b c := by rw [h]

/-- A finite sum of reals, read in the extended reals, is the sum of the terms read there. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over `m · n` rows is the sum over the `m` blocks of the sums over each block's `n` rows: row `r` is row
    `r % n` of block `r / n`. -/
theorem sum_blocks {M : Type} [AddCommMonoid M] (m n : ℕ) (f : ℕ → M) :
    ∑ r : Fin (m * n), f r.val = ∑ t : Fin m, ∑ p : Fin n, f (t.val * n + p.val) := by
  rw [← Fintype.sum_prod_type' (f := fun (t : Fin m) (p : Fin n) => f (t.val * n + p.val))]
  refine (Fintype.sum_equiv finProdFinEquiv _ _ fun tp => ?_).symm
  simp [finProdFinEquiv, Nat.mul_comm]
  rw [Nat.add_comm]

/-- The same with the number of rows given as a literal. -/
theorem sum_blocks' {M : Type} [AddCommMonoid M] (m n N : ℕ) (hN : N = m * n) (f : ℕ → M) :
    ∑ r : Fin N, f r.val = ∑ t : Fin m, ∑ p : Fin n, f (t.val * n + p.val) := by
  subst hN
  exact sum_blocks m n f

/-- The running total a block-by-block accumulation holds after block `n`: started at `0 + g 0`, then `+ g (n+1)`. -/
def running {M : Type} [AddCommMonoid M] (g : ℕ → M) : ℕ → M
  | 0 => 0 + g 0
  | n + 1 => running g n + g (n + 1)

/-- It is the sum of the blocks' contributions so far. -/
theorem running_eq_sum {M : Type} [AddCommMonoid M] (g : ℕ → M) (n : ℕ) :
    running g n = ∑ t ∈ Finset.range (n + 1), g t := by
  induction n with
  | zero => simp [running]
  | succ n ih => rw [running, ih, Finset.sum_range_succ (n := n + 1)]

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type} [AddCommMonoid M] {n : Nat} (f : (⟨1, ![n]⟩ : Shape).Idx → M) :
    ∑ i, f i = ∑ a : Fin n, f (ix1 a) := by
  rw [← Equiv.sum_comp (idxEquiv1 (n := n)).symm f]
  rfl

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Lib

end
-- ==== Proof.RowLaw.lean ====
/-
  The mathematics both programs share, over the extended reals.

  A row of each argument array is a family `x, y : ι → EReal`. Write `‖x‖ε := max (√(∑ x²)) ε` for the row's norm
  clamped below by the positive constant `ε` (the pattern `0x2B8CBCCC`, the same word in both programs).
  One program computes a row's cosine as the quotient of the inner product by the product of the two clamped norms,
  the other as the inner product of the two rows each divided entrywise by its clamped norm:

      (∑ₖ xₖ yₖ) / (‖x‖ε · ‖y‖ε)   =   ∑ₖ (xₖ / ‖x‖ε) · (yₖ / ‖y‖ε).

  For real entries both clamped norms are positive reals, so every quotient is a product with a real reciprocal and
  the identity is the distributive law in ℝ. (With an infinite entry it fails: `∞ / ∞` is junk; hence the entries
  are assumed real.) The rows' cosines are then summed: one program sums all rows at once, the other block by block
  into a running total; a sum over `m · n` rows is the sum over `m` blocks of the sums over each block's `n` rows.
-/
import Idealize.ShloMosaic.PureOps.Ideal
import Idealize.ShloMosaic.PureOps.Ideal.Laws
import proofs.«110248_j74002286510639_1_alg».proof.Proof.LibIdealSums

noncomputable section

namespace Cert.Cosine

open Idealize.ShloMosaic Cert.Lib

/-- The clamp `ε`: the f32 pattern `0x2B8CBCCC` (sign 0, exponent 87, fraction 834764) denotes the positive real
    `(2²³ + 834764) · 2⁻⁶³`. Only its being a positive real is used. -/
theorem eps_real : ∃ e : ℝ, 0 < e ∧ Ideal.ofBits .f32 0x2B8CBCCC#32 = ((e : ℝ) : EReal) := by
  refine ⟨(9223372 : ℝ) * (2 : ℝ) ^ (-63 : ℤ), by positivity, ?_⟩
  simp [Ideal.ofBits, Ideal.ieee, -EReal.coe_mul]

/-- A row's clamped norm from its sum of squares `s`: `max (√s) ε`. -/
def nrm (s : EReal) : EReal := max (Ideal.sqrt s) (Ideal.ofBits .f32 0x2B8CBCCC#32)

/-- Of a nonnegative real sum of squares the clamped norm is a positive real. -/
theorem nrm_real {s : ℝ} (hs : 0 ≤ s) : ∃ n : ℝ, 0 < n ∧ nrm (s : EReal) = ((n : ℝ) : EReal) := by
  obtain ⟨e, he, hE⟩ := eps_real
  refine ⟨max (Real.sqrt s) e, lt_max_of_lt_right he, ?_⟩
  unfold nrm
  rw [hE, Ideal.sqrt_coe, if_neg (not_lt.mpr hs)]
  exact (EReal.coe_strictMono.monotone.map_max).symm

variable {ι : Type} [Fintype ι]

/-- The row's cosine as the quotient of the inner product by the product of the clamped norms. -/
def cosQuot (x y : ι → EReal) : EReal :=
  Ideal.div (∑ k, x k * y k) (nrm (∑ k, x k * x k) * nrm (∑ k, y k * y k))

/-- The row's cosine as the inner product of the two rows divided entrywise by their clamped norms. -/
def cosNormed (x y : ι → EReal) : EReal :=
  ∑ k, Ideal.div (x k) (nrm (∑ k, x k * x k)) * Ideal.div (y k) (nrm (∑ k, y k * y k))

/-- THE LAW. On rows of reals the two readings of the cosine agree: division by the positive real `‖x‖ε‖y‖ε` is
    multiplication by its reciprocal, which distributes over the real sum. -/
theorem cosNormed_eq_cosQuot (x y : ι → EReal) (hx : ∀ k, ∃ a : ℝ, x k = (a : EReal)) (hy : ∀ k, ∃ b : ℝ, y k = (b : EReal)) :
    cosNormed x y = cosQuot x y := by
  choose a ha using hx
  choose b hb using hy
  obtain rfl : x = fun k => ((a k : ℝ) : EReal) := funext ha
  obtain rfl : y = fun k => ((b k : ℝ) : EReal) := funext hb
  unfold cosNormed cosQuot
  simp only [← EReal.coe_mul, ← coe_sum]
  obtain ⟨na, hna, hA⟩ := nrm_real (s := ∑ k, a k * a k) (Finset.sum_nonneg fun k _ => mul_self_nonneg _)
  obtain ⟨nb, hnb, hB⟩ := nrm_real (s := ∑ k, b k * b k) (Finset.sum_nonneg fun k _ => mul_self_nonneg _)
  rw [hA, hB, ← EReal.coe_mul, Ideal.div_coe (mul_pos hna hnb).ne']
  simp only [Ideal.div_coe hna.ne', Ideal.div_coe hnb.ne', ← EReal.coe_mul, ← coe_sum]
  refine congrArg _ ?_
  rw [Finset.sum_mul]
  refine Finset.sum_congr rfl fun k _ => ?_
  field_simp

end Cert.Cosine

end
-- ==== Proof.Spec.lean ====
/-
  The result both programs compute, as ONE function of the two argument arrays `A, B` of 1048576 rows by 128 lanes:
  the sum over the rows of each row's cosine `(∑ₖ Aᵣₖ Bᵣₖ) / (‖Aᵣ‖ε ‖Bᵣ‖ε)`, divided by the constant `0x49800000`
  (2²⁰, the number of rows; the same word in both programs, so its value is never needed).
-/
import Idealize.ShloMosaic.Lib.ValueIdx
import proofs.«110248_j74002286510639_1_alg».proof.Proof.RowLaw

noncomputable section

namespace Cert.Cosine

open Idealize.ShloMosaic Idealize.ShloMosaic.ValueIdx Cert.Lib

/-- An argument array at the ideal instance. -/
abbrev Arr : Type := (⟨2, ![1048576, 128]⟩ : Shape).Idx → EReal

/-- Row `r` of an array, as a family over the 128 lanes. -/
def rowOf (A : Arr) (r : Fin 1048576) : Fin 128 → EReal := fun k => A (ix2 r k)

/-- The sum over all rows of the row's cosine. -/
def totalCos (A B : Arr) : EReal := ∑ r : Fin 1048576, cosQuot (rowOf A r) (rowOf B r)

/-- The mean cosine: the total divided by the number of rows (the constant `0x49800000`), a rank-0 array. -/
def meanCos (A B : Arr) : (⟨0, ![]⟩ : Shape).Idx → EReal :=
  fun _ => Ideal.div (totalCos A B) (Ideal.ofBits .f32 0x49800000#32)

end Cert.Cosine

end
-- ==== Proof.KernelPayload.lean ====
/-
  The kernel body's arithmetic at the ideal instance, read at an index. At one grid point the body holds a block
  `a, b` of 8192 rows by 128 lanes of each argument and the one-entry running total `acc`; what it stores back is

      acc + ∑ₚ (∑ₖ aₚₖ bₚₖ) / (max (√∑ₖ aₚₖ²) ε · max (√∑ₖ bₚₖ²) ε),

  the running total plus the sum over the block's rows of each row's cosine. The three lane sums keep their reduced
  axis as a unit column, the row sum keeps its as a unit row: each such re-laying reads the same entry.
-/
import proofs.«110248_j74002286510639_1_alg».proof.Proof.Gen.KernelIdeal.Skeleton
import proofs.«110248_j74002286510639_1_alg».proof.Proof.Spec
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Cert.Cosine Cert.Lib
open Idealize.ShloMosaic Idealize.ShloMosaic.ValueIdx

/-- A lane sum of a block, at row `p`: the sum over the 128 lanes of the row's entries. -/
theorem laneSum_apply (v : FVec Ideal S8192x128 .f32) (h : S8192x128.Reduces [1] S8192) (hφ : FKind.Formats .f32)
    (hacc : (0x00000000#32 : BitVec 32) = FKind.add.neutral .f32 hφ) (p : Fin 8192) :
    multiReduction .add [1] S8192 v 0x00000000#32 h hφ hacc (ix1 p) = ∑ k : Fin 128, v (ix2 p k) :=
  (Ideal.multiReduction_add_single v 0x00000000#32 h hφ hacc (ix1 p)).trans
    (Finset.sum_congr rfl fun k _ => congrArg v
      (funext fun a => Fin.ext (by match a with | ⟨0, _⟩ => rfl | ⟨1, _⟩ => rfl)))

/-- The same kept as a unit column. -/
theorem laneSumCol_apply (v : FVec Ideal S8192x128 .f32) (h : S8192x128.Reduces [1] S8192) (hφ : FKind.Formats .f32)
    (hacc : (0x00000000#32 : BitVec 32) = FKind.add.neutral .f32 hφ) (hc : S8192.ShapeCasts S8192x1) (p : Fin 8192) (u : Fin 1) :
    shapeCast S8192x1 (multiReduction .add [1] S8192 v 0x00000000#32 h hφ hacc) hc (ix2 p u) = ∑ k : Fin 128, v (ix2 p k) :=
  (shapeCast_a_a1_apply _ hc p u).trans (laneSum_apply v h hφ hacc p)

/-- A sum over the 8192 rows of a one-column block, at the column: the sum of the column's entries. -/
theorem rowSum_apply (v : FVec Ideal S8192x1 .f32) (h : S8192x1.Reduces [0] S1) (hφ : FKind.Formats .f32)
    (hacc : (0x00000000#32 : BitVec 32) = FKind.add.neutral .f32 hφ) (u : Fin 1) :
    multiReduction .add [0] S1 v 0x00000000#32 h hφ hacc (ix1 u) = ∑ p : Fin 8192, v (ix2 p u) :=
  (Ideal.multiReduction_add_single v 0x00000000#32 h hφ hacc (ix1 u)).trans
    (Finset.sum_congr rfl fun p _ => congrArg v
      (funext fun a => Fin.ext (by match a with | ⟨0, _⟩ => rfl | ⟨1, _⟩ => rfl)))

/-- Row `p` of a block, as a family over the 128 lanes. -/
def blockRow (v : Vec Ideal S8192x128 .f32) (p : Fin 8192) : Fin 128 → EReal := fun k => v (ix2 p k)

/-- WHAT THE BODY STORES BACK into the running total: the total it read plus the sum of the block's rows' cosines. -/
theorem pay2_apply (a b : Vec Ideal S8192x128 .f32) (acc : Vec Ideal S1x1 .f32) (u u' : Fin 1) :
    k0_pay2 (F := Ideal) a b acc (ix2 u u') = acc (ix2 u u') + ∑ p : Fin 8192, cosQuot (blockRow a p) (blockRow b p) := by
  unfold k0_pay2
  dsimp only
  refine (congrFun (shapeCast_self _ _) (ix2 u u')).trans ?_
  refine congrArg (acc (ix2 u u') + ·) ?_
  refine (shapeCast_a_1a_apply _ _ u u').trans ?_
  refine (rowSum_apply _ _ _ _ u').trans ?_
  refine Finset.sum_congr rfl fun p _ => ?_
  unfold cosQuot nrm blockRow
  refine (divf_apply _ _ _).trans ?_
  refine congrArg₂ Ideal.div (laneSumCol_apply _ _ _ _ _ p u') ?_
  refine (mulf_apply _ _ _).trans ?_
  refine congrArg₂ (· * ·) ?_ ?_
  · refine (maximumf_apply _ _ _).trans ?_
    refine congrArg₂ max ?_ rfl
    exact congrArg Ideal.sqrt (laneSumCol_apply _ _ _ _ _ p u')
  · refine (maximumf_apply _ _ _).trans ?_
    refine congrArg₂ max ?_ rfl
    exact congrArg Ideal.sqrt (laneSumCol_apply _ _ _ _ _ p u')

/-- What the reset stores at the first grid point: zero. -/
theorem pay1_apply (j : S1x1.Idx) : k0_pay1 (F := Ideal) j = 0 := by
  unfold k0_pay1
  refine (congrFun (shapeCast_self _ _) j).trans ?_
  exact Ideal.ofBits_zero_f32

end Cert.KernelIdeal.Payload

end
-- ==== Proof.KernelBlocks.lean ====
/-
  The kernel's blocks against the whole arrays. Grid point `t` (of 128) holds rows `8192 t … 8192 t + 8191` of each
  argument array: row `p` of its block is row `8192 t + p` of the array. Its contribution to the running total is the
  sum of its rows' cosines, and the 128 contributions together are the sum over all 1048576 rows.
-/
import proofs.«110248_j74002286510639_1_alg».proof.Proof.Gen.KernelIdeal.Frame
import proofs.«110248_j74002286510639_1_alg».proof.Proof.KernelPayload

noncomputable section

namespace Cert.KernelIdeal.Blocks

open Cert.KernelIdeal Cert.KernelIdeal.Gen Cert.KernelIdeal.Payload Cert.Cosine Cert.Lib
open Idealize.ShloMosaic Idealize.ShloMosaic.TcCoe Idealize.SL.Sem Idealize.ShloMosaic.ValueIdx

variable (m : (ℓ : Loc nD τ sig) → Buf (Elt Ideal) ℓ)

/-- The two argument arrays as the kernel finds them. -/
abbrev arrA (c : Dev nD) : Arr := m ((c : Thread nD τ).loc main_arg0)
abbrev arrB (c : Dev nD) : Arr := m ((c : Thread nD τ).loc main_arg1)

/-- The two input blocks at a grid point. -/
abbrev ablk (c : Dev nD) (t : Fin cfg0.N) : Vec Ideal S8192x128 .f32 := iblk m c 0 t
abbrev bblk (c : Dev nD) (t : Fin cfg0.N) : Vec Ideal S8192x128 .f32 := iblk m c 1 t

/-- Both windows' block index at point `t` is `(t, 0)`: decided over the grid. -/
theorem idx_facts0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_facts1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- Entry `(p, k)` of the first argument's block at point `t` is entry `(8192 t + p, k)` of the array. -/
theorem ablk_apply (c : Dev nD) (t : Fin cfg0.N) (p : Fin 8192) (k : Fin 128) (hr : t.val * 8192 + p.val < 1048576) :
    ablk m c t (ix2 p k) = arrA m c (ix2 ⟨t.val * 8192 + p.val, hr⟩ k) := by
  unfold ablk iblk
  rw [View.read_apply]
  show V m c main_arg0 (((cfg0.win 0).blk t).view.emb (ix2 p k)) = _
  rw [V_main_arg0]
  refine congrArg _ (funext fun a => Fin.ext ?_)
  match a with
  | ⟨0, _⟩ => show win0_0.index t 0 * 8192 + 1 * p.val = t.val * 8192 + p.val; rw [(idx_facts0 t).1]; omega
  | ⟨1, _⟩ => show win0_0.index t 1 * 128 + 1 * k.val = k.val; rw [(idx_facts0 t).2]; omega

/-- The same for the second argument. -/
theorem bblk_apply (c : Dev nD) (t : Fin cfg0.N) (p : Fin 8192) (k : Fin 128) (hr : t.val * 8192 + p.val < 1048576) :
    bblk m c t (ix2 p k) = arrB m c (ix2 ⟨t.val * 8192 + p.val, hr⟩ k) := by
  unfold bblk iblk
  rw [View.read_apply]
  show V m c main_arg1 (((cfg0.win 1).blk t).view.emb (ix2 p k)) = _
  rw [V_main_arg1]
  refine congrArg _ (funext fun a => Fin.ext ?_)
  match a with
  | ⟨0, _⟩ => show win0_1.index t 0 * 8192 + 1 * p.val = t.val * 8192 + p.val; rw [(idx_facts1 t).1]; omega
  | ⟨1, _⟩ => show win0_1.index t 1 * 128 + 1 * k.val = k.val; rw [(idx_facts1 t).2]; omega

/-- The cosine of row `r` of the two arrays, `0` past the last row. -/
def rowCos (c : Dev nD) (r : ℕ) : EReal :=
  if h : r < 1048576 then cosQuot (rowOf (arrA m c) ⟨r, h⟩) (rowOf (arrB m c) ⟨r, h⟩) else 0

/-- Point `t`'s contribution: the sum of its block's rows' cosines; `0` past the grid. -/
def contrib (c : Dev nD) (t : ℕ) : EReal :=
  if h : t < cfg0.N then ∑ p : Fin 8192, cosQuot (blockRow (ablk m c ⟨t, h⟩) p) (blockRow (bblk m c ⟨t, h⟩) p) else 0

/-- A point's contribution is the sum of the cosines of the array's rows `8192 t + p`. -/
theorem contrib_eq (c : Dev nD) (t : Fin 128) : contrib m c t.val = ∑ p : Fin 8192, rowCos m c (t.val * 8192 + p.val) := by
  have hN : cfg0.N = 128 := N_0
  have ht : t.val < cfg0.N := by rw [hN]; exact t.isLt
  unfold contrib
  rw [dif_pos ht]
  refine Finset.sum_congr rfl fun p _ => ?_
  have hr : t.val * 8192 + p.val < 1048576 := by have := t.isLt; have := p.isLt; omega
  unfold rowCos
  rw [dif_pos hr]
  have ea : blockRow (ablk m c ⟨t.val, ht⟩) p = rowOf (arrA m c) ⟨t.val * 8192 + p.val, hr⟩ :=
    funext fun k => ablk_apply m c ⟨t.val, ht⟩ p k hr
  have eb : blockRow (bblk m c ⟨t.val, ht⟩) p = rowOf (arrB m c) ⟨t.val * 8192 + p.val, hr⟩ :=
    funext fun k => bblk_apply m c ⟨t.val, ht⟩ p k hr
  rw [ea, eb]

/-- The running total after the last point is the sum of all rows' cosines. -/
theorem running_last (c : Dev nD) : running (contrib m c) 127 = totalCos (arrA m c) (arrB m c) := by
  rw [running_eq_sum, ← Fin.sum_univ_eq_sum_range (fun t => contrib m c t) 128]
  unfold totalCos
  have e : ∀ r : Fin 1048576, cosQuot (rowOf (arrA m c) r) (rowOf (arrB m c) r) = rowCos m c r.val := fun r => by
    unfold rowCos; rw [dif_pos r.isLt]
  rw [Finset.sum_congr rfl fun r _ => e r, sum_blocks' 128 8192 1048576 (by norm_num) (rowCos m c)]
  exact Finset.sum_congr rfl fun t _ => contrib_eq m c t

end Cert.KernelIdeal.Blocks

end
-- ==== Proof.KernelScratch.lean ====
/-
  The accumulation across the grid. After grid point `n` the kernel's one-entry scratch holds the running total
  `(0 + g 0) + g 1 + … + g n` of the points' contributions `g t` (the sum of block `t`'s rows' cosines): at the first
  point the body adds `g 0` to the zero it has just stored, at every later point it adds `g n` to what the point
  before left. By induction on the point. At the last point the output block receives the same total.
-/
import proofs.«110248_j74002286510639_1_alg».proof.Proof.KernelPieces
import proofs.«110248_j74002286510639_1_alg».proof.Proof.KernelBlocks

noncomputable section

namespace Cert.KernelIdeal.Scratch

open Cert.KernelIdeal Cert.KernelIdeal.Gen Cert.KernelIdeal.Payload Cert.KernelIdeal.Pieces Cert.KernelIdeal.Blocks Cert.Cosine Cert.Lib
open Idealize.ShloMosaic Idealize.ShloMosaic.TcCoe Idealize.SL.Sem Idealize.ShloMosaic.ValueIdx

variable (m : (ℓ : Loc nD τ sig) → Buf (Elt Ideal) ℓ)

theorem running_zero (g : ℕ → EReal) : running g 0 = 0 + g 0 := rfl
theorem running_succ (g : ℕ → EReal) (n : ℕ) : running g (n + 1) = running g n + g (n + 1) := rfl

/-- A point's contribution, inside the grid. -/
theorem contrib_of_lt (c : Dev nD) (t : ℕ) (h : t < cfg0.N) :
    contrib m c t = ∑ p : Fin 8192, cosQuot (blockRow (ablk m c ⟨t, h⟩) p) (blockRow (bblk m c ⟨t, h⟩) p) := by
  unfold contrib
  rw [dif_pos h]

/-- The cases' values at a grid point's own staging buffers and input blocks. -/
theorem scratchA (c : Dev nD) (t : Fin cfg0.N) (hc0 : cond0_0 (grid0.coords t)) (hc1 : ¬cond0_1 (grid0.coords t)) :
    sout0_A_0 c (grid0.coords t) (ms0_0 t) (hs0_0 t) (ms0_1 t) (hs0_1 t) (ms0_2 t) (hs0_2 t) scM0_0 (Memref.isWhole_whole _) hc0 hc1
        (iblk m c 0 t) (iblk m c 1 t)
      = k0_pay2 (ablk m c t) (bblk m c t) (k0_pay1 (F := Ideal)) :=
  sout_A (F := Ideal) c (grid0.coords t) (ms0_0 t) (hs0_0 t) (ms0_1 t) (hs0_1 t) (ms0_2 t) (hs0_2 t) scM0_0 (Memref.isWhole_whole _) hc0 hc1
    (ablk m c t) (bblk m c t)

theorem scratchB (c : Dev nD) (t : Fin cfg0.N) (hc0 : ¬cond0_0 (grid0.coords t)) (hc1 : ¬cond0_1 (grid0.coords t))
    (s : Vec Ideal S1x1 .f32) :
    sout0_B_0 c (grid0.coords t) (ms0_0 t) (hs0_0 t) (ms0_1 t) (hs0_1 t) (ms0_2 t) (hs0_2 t) scM0_0 (Memref.isWhole_whole _) hc0 hc1
        (iblk m c 0 t) (iblk m c 1 t) s
      = k0_pay2 (ablk m c t) (bblk m c t) s :=
  sout_B (F := Ideal) c (grid0.coords t) (ms0_0 t) (hs0_0 t) (ms0_1 t) (hs0_1 t) (ms0_2 t) (hs0_2 t) scM0_0 (Memref.isWhole_whole _) hc0 hc1
    (ablk m c t) (bblk m c t) s

theorem scratchC (c : Dev nD) (t : Fin cfg0.N) (hc0 : ¬cond0_0 (grid0.coords t)) (hc1 : cond0_1 (grid0.coords t))
    (s : Vec Ideal S1x1 .f32) :
    sout0_C_0 c (grid0.coords t) (ms0_0 t) (hs0_0 t) (ms0_1 t) (hs0_1 t) (ms0_2 t) (hs0_2 t) scM0_0 (Memref.isWhole_whole _) hc0 hc1
        (iblk m c 0 t) (iblk m c 1 t) s
      = k0_pay2 (ablk m c t) (bblk m c t) s :=
  sout_C (F := Ideal) c (grid0.coords t) (ms0_0 t) (hs0_0 t) (ms0_1 t) (hs0_1 t) (ms0_2 t) (hs0_2 t) scM0_0 (Memref.isWhole_whole _) hc0 hc1
    (ablk m c t) (bblk m c t) s

theorem outputC (c : Dev nD) (t : Fin cfg0.N) (hc0 : ¬cond0_0 (grid0.coords t)) (hc1 : cond0_1 (grid0.coords t))
    (s : Vec Ideal S1x1 .f32) :
    out0_C_2 c (grid0.coords t) (ms0_0 t) (hs0_0 t) (ms0_1 t) (hs0_1 t) (ms0_2 t) (hs0_2 t) scM0_0 (Memref.isWhole_whole _) hc0 hc1
        (iblk m c 0 t) (iblk m c 1 t) s
      = k0_pay2 (ablk m c t) (bblk m c t) s :=
  out_C (F := Ideal) c (grid0.coords t) (ms0_0 t) (hs0_0 t) (ms0_1 t) (hs0_1 t) (ms0_2 t) (hs0_2 t) scM0_0 (Memref.isWhole_whole _) hc0 hc1
    (ablk m c t) (bblk m c t) s

/-- The contents after a point depend on the point's number only, however it is spelt. -/
theorem outsAt_congr (c : Dev nD) {a b : ℕ} (e : a = b) (ha : a < cfg0.N) (hb : b < cfg0.N) :
    outsAt0 m c a ha = outsAt0 m c b hb := by
  subst e
  rfl

/-- The first point: the scratch holds `0 + g 0`. -/
theorem scratch_zero (c : Dev nD) (hn : 0 < cfg0.N) (u u' : Fin 1) :
    (outsAt0 m c 0 hn).2 (ix2 u u') = running (contrib m c) 0 := by
  have h0 : (⟨0, hn⟩ : Fin cfg0.N).val % 128 = 0 := rfl
  have h1 : ¬(⟨0, hn⟩ : Fin cfg0.N).val % 128 = 127 := by dsimp only; omega
  rw [outsAt0_A m c ⟨0, hn⟩ h0 h1]
  dsimp only
  refine (congrFun (scratchA m c ⟨0, hn⟩ _ _) (ix2 u u')).trans ?_
  refine (pay2_apply (ablk m c ⟨0, hn⟩) (bblk m c ⟨0, hn⟩) (k0_pay1 (F := Ideal)) u u').trans ?_
  rw [pay1_apply, running_zero, contrib_of_lt m c 0 hn]

/-- A later point: the scratch holds what the point before left plus this point's contribution. -/
theorem scratch_succ (c : Dev nD) (n : ℕ) (hn : n + 1 < cfg0.N) (u u' : Fin 1)
    (ih : (outsAt0 m c n (Nat.lt_of_succ_lt hn)).2 (ix2 u u') = running (contrib m c) n) :
    (outsAt0 m c (n + 1) hn).2 (ix2 u u') = running (contrib m c) (n + 1) := by
  have hN : cfg0.N = 128 := N_0
  have h0 : ¬(⟨n + 1, hn⟩ : Fin cfg0.N).val % 128 = 0 := by dsimp only; omega
  have eprev : ∀ h', outsAt0 m c (n + 1 - 1) h' = outsAt0 m c n (Nat.lt_of_succ_lt hn) :=
    fun h' => outsAt_congr m c (Nat.add_sub_cancel n 1) h' _
  rw [running_succ, contrib_of_lt m c (n + 1) hn]
  by_cases h1 : (⟨n + 1, hn⟩ : Fin cfg0.N).val % 128 = 127
  · rw [outsAt0_C m c ⟨n + 1, hn⟩ h0 h1]
    dsimp only
    rw [eprev]
    refine (congrFun (scratchC m c ⟨n + 1, hn⟩ _ _ (outsAt0 m c n (Nat.lt_of_succ_lt hn)).2) (ix2 u u')).trans ?_
    refine (pay2_apply (ablk m c ⟨n + 1, hn⟩) (bblk m c ⟨n + 1, hn⟩) (outsAt0 m c n (Nat.lt_of_succ_lt hn)).2 u u').trans ?_
    rw [ih]
  · rw [outsAt0_B m c ⟨n + 1, hn⟩ h0 h1]
    dsimp only
    rw [eprev]
    refine (congrFun (scratchB m c ⟨n + 1, hn⟩ _ _ (outsAt0 m c n (Nat.lt_of_succ_lt hn)).2) (ix2 u u')).trans ?_
    refine (pay2_apply (ablk m c ⟨n + 1, hn⟩) (bblk m c ⟨n + 1, hn⟩) (outsAt0 m c n (Nat.lt_of_succ_lt hn)).2 u u').trans ?_
    rw [ih]

/-- THE INVARIANT: after point `n` the scratch's one entry is the running total of the contributions up to `n`. -/
theorem scratch_eq (c : Dev nD) (n : ℕ) : ∀ (hn : n < cfg0.N) (u u' : Fin 1),
    (outsAt0 m c n hn).2 (ix2 u u') = running (contrib m c) n := by
  induction n with
  | zero => exact fun hn u u' => scratch_zero m c hn u u'
  | succ n ih => exact fun hn u u' => scratch_succ m c n hn u u' (ih (Nat.lt_of_succ_lt hn) u u')

/-- The output block at a point that writes it (the last): the running total after that point. Stated at a symbolic
    point, as the scratch invariant is. -/
theorem output_eq (c : Dev nD) (n : ℕ) (hn : n < cfg0.N) (h1 : n % 128 = 127) (u u' : Fin 1) :
    (outsAt0 m c n hn).1 (ix2 u u') = running (contrib m c) n := by
  obtain ⟨k, rfl⟩ : ∃ k, n = k + 1 := ⟨n - 1, by omega⟩
  have hN : cfg0.N = 128 := N_0
  have h0 : ¬(⟨k + 1, hn⟩ : Fin cfg0.N).val % 128 = 0 := by dsimp only; omega
  have h1' : (⟨k + 1, hn⟩ : Fin cfg0.N).val % 128 = 127 := h1
  have eprev : ∀ h', outsAt0 m c (k + 1 - 1) h' = outsAt0 m c k (Nat.lt_of_succ_lt hn) :=
    fun h' => outsAt_congr m c (Nat.add_sub_cancel k 1) h' _
  rw [running_succ, contrib_of_lt m c (k + 1) hn]
  rw [outsAt0_C m c ⟨k + 1, hn⟩ h0 h1']
  dsimp only
  rw [eprev]
  refine (congrFun (outputC m c ⟨k + 1, hn⟩ _ _ (outsAt0 m c k (Nat.lt_of_succ_lt hn)).2) (ix2 u u')).trans ?_
  refine (pay2_apply (ablk m c ⟨k + 1, hn⟩) (bblk m c ⟨k + 1, hn⟩) (outsAt0 m c k (Nat.lt_of_succ_lt hn)).2 u u').trans ?_
  rw [scratch_eq m c k (Nat.lt_of_succ_lt hn) u u']

end Cert.KernelIdeal.Scratch

end
-- ==== Proof.KernelRun.lean ====
/-
  The kernel program's run, read as a value. Only the last grid point writes the output block back, and that block is
  the whole one-entry output array: after the region it holds the sum of all rows' cosines. The host lines after the
  region drop the array's two unit axes and divide by the number of rows: the result is the mean cosine.
-/
import proofs.«110248_j74002286510639_1_alg».proof.Proof.KernelScratch
import Idealize.ShloMosaic.Lib.Pipeline.Value
import Idealize.ShloMosaic.Lib.StableHlo.Run

noncomputable section

namespace Cert.KernelIdeal.Run

open Cert.KernelIdeal Cert.KernelIdeal.Gen Cert.KernelIdeal.Blocks Cert.KernelIdeal.Scratch Cert.Cosine
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The last grid point. -/
abbrev tLast : Fin cfg0.N := ⟨127, by rw [show cfg0.N = 128 from N_0]; decide⟩

/-- What the output array holds after the region: at its one entry the sum of all rows' cosines. -/
abbrev total (c : Dev nD) : Buf (Elt Ideal) ((c : Thread nD τ).loc main_v0) := fun _ => totalCos (arrA m c) (arrB m c)

/-- The output block after the point that writes it back, at any index: the sum of all rows' cosines (that point is
    the last, and the running total after the last point is the whole sum). -/
theorem output_flushed (c : Dev nD) (t : Fin cfg0.N) (h1 : t.val % 128 = 127) (j : S1x1.Idx) :
    (outsAt0 m c t.val t.isLt).1 j = totalCos (arrA m c) (arrB m c) := by
  obtain ⟨u, u', rfl⟩ : ∃ (u u' : Fin 1), j = ix2 u u' := ⟨j 0, j 1, eq_ix2 j⟩
  have hN : cfg0.N = 128 := N_0
  have h127 : t.val = 127 := by have := t.isLt; omega
  rw [output_eq m c t.val t.isLt h1 u u', h127]
  exact running_last m c

/-- The one write-back, at the last point, writes the total. -/
theorem flushed_eq (c : Dev nD) (t : Fin cfg0.N) (hf : (cfg0.win 2).flush t = true) :
    (dats m 0 c).flushed 2 t = ((cfg0.win 2).blk t).view.read (Elt Ideal) (total m c) := by
  have h1 : t.val % 128 = 127 := (flush0_2 t).mp hf
  have e1 : (dats m 0 c).after 2 t = fun _ => totalCos (arrA m c) (arrB m c) :=
    (after0_2 m c t).trans (funext fun j => output_flushed m c t h1 j)
  funext y
  rw [View.read_apply]
  unfold Dat.flushed
  rw [e1]
  refine Eq.trans ?_ (cast_eq _ _).symm
  rfl

/-- So the output array ends holding the total: the last point's block covers its one entry. -/
theorem final (c : Dev nD) : (dats m 0 c).arrAt 2 cfg0.N = total m c :=
  (dats m 0 c).arrAt_eq_of_cover 2 (total m c) (flushed_eq m c) fun i =>
    ⟨tLast, (flush0_2 tLast).mpr rfl, by
      show i ∈ ((View.whole main_v0).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 1 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 1 from by decide +kernel]; omega⟩

/-- The host lines after the region: the result is the output array's entry over the number of rows. -/
theorem tail_eq (c : Dev nD) :
    Pipeline.afterTail₀ cfgs (dats m) 0 (V0 m) [hostOps1] c main_v2 = meanCos (arrA m c) (arrB m c) := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v0)
      = total m c :=
    (Pipeline.withArrays_arr spec0 launch0.win.arr_inj c _ _ 2).trans (final m c)
  rw [e]
  funext i
  rfl

/-- THE KERNEL PROGRAM'S RUN AT THE IDEAL INSTANCE: every weakly fair execution terminates with the result buffer at the
    mean cosine of the two argument arrays, and the arguments unchanged. -/
theorem run : θ_run defs (onTc (τ := τ) (main (F := Ideal))) ⟨m, fun _ => 0, ρ⟩ fun r => ∀ c : Dev nD,
      r.2.mem ((c : Thread nD τ).loc main_v2) = meanCos (arrA m c) (arrB m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v2 (Pipeline.mem_restRefs_of main_v2 rfl (by decide))).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.Run

end
-- ==== Proof.RefCosine.lean ====
/-
  The reference, read index by index at the ideal instance: each row's clamped norm is `max (√(0 + ∑ₖ xᵣₖ²)) ε`, each
  entry is divided by its row's clamped norm, a row's cosine is `0 + ∑ₖ` of the products of the two normalised rows,
  and the result is `0 + ∑ᵣ` of the rows' cosines divided by the number of rows. The two zeros are the sums' initial
  values (the pattern of `+0.0`), which denote `0`.
-/
import proofs.«110248_j74002286510639_1_alg».proof.Proof.Gen.ReferenceIdeal.Run
import proofs.«110248_j74002286510639_1_alg».proof.Proof.Gen.ReferenceIdeal.Read
import proofs.«110248_j74002286510639_1_alg».proof.Proof.Spec

noncomputable section

namespace Cert.ReferenceIdeal.RefValue

open Cert.ReferenceIdeal Cert.ReferenceIdeal.Read Cert.Cosine Cert.Lib
open Idealize.ShloMosaic Idealize.ShloMosaic.ValueIdx

/-- Row `r`'s clamped norm of the first argument, as the reference computes it (read at the row's one column). -/
theorem norm0_apply (x0 : Arr) (r : Fin 1048576) :
    val_main_v2 (F := Ideal) x0 (ix2 r (0 : Fin 1)) = nrm (∑ k, rowOf x0 r k * rowOf x0 r k) := by
  rw [val_main_v2_apply, val_main_v0_apply, val_main_call0_v2_apply, val_main_call0_v1_apply, val_main_v1_apply,
    val_main_cst_apply, val_main_call0_cst_apply]
  simp only [val_main_call0_v0_apply, Ideal.maximumf_def, Ideal.hostUnary_sqrt_def, Ideal.mulf_def, Ideal.ofBits_def,
    Ideal.ofBits_zero_f32, zero_add]
  unfold nrm rowOf
  refine congrArg (fun s => max (Ideal.sqrt s) _) (Finset.sum_congr rfl fun k _ => ?_)
  have e : idx_main_call0_v1 (idx_main_call0_v2 (ix2 r (0 : Fin 1))) k = ix2 r k :=
    funext fun a => Fin.ext (by match a with | ⟨0, _⟩ => rfl | ⟨1, _⟩ => rfl)
  rw [e]

/-- The same for the second argument. -/
theorem norm1_apply (x1 : Arr) (r : Fin 1048576) :
    val_main_v5 (F := Ideal) x1 (ix2 r (0 : Fin 1)) = nrm (∑ k, rowOf x1 r k * rowOf x1 r k) := by
  rw [val_main_v5_apply, val_main_v3_apply, val_main_call1_v2_apply, val_main_call1_v1_apply, val_main_v4_apply,
    val_main_cst_0_apply, val_main_call1_cst_apply]
  simp only [val_main_call1_v0_apply, Ideal.maximumf_def, Ideal.hostUnary_sqrt_def, Ideal.mulf_def, Ideal.ofBits_def,
    Ideal.ofBits_zero_f32, zero_add]
  unfold nrm rowOf
  refine congrArg (fun s => max (Ideal.sqrt s) _) (Finset.sum_congr rfl fun k _ => ?_)
  have e : idx_main_call1_v1 (idx_main_call1_v2 (ix2 r (0 : Fin 1))) k = ix2 r k :=
    funext fun a => Fin.ext (by match a with | ⟨0, _⟩ => rfl | ⟨1, _⟩ => rfl)
  rw [e]

/-- An entry of the product of the two normalised arrays: each factor its entry over its row's clamped norm. -/
theorem prod_apply (x0 x1 : Arr) (r : Fin 1048576) (k : Fin 128) :
    val_main_v10 (F := Ideal) x0 x1 (ix2 r k)
      = Ideal.div (rowOf x0 r k) (nrm (∑ k, rowOf x0 r k * rowOf x0 r k))
        * Ideal.div (rowOf x1 r k) (nrm (∑ k, rowOf x1 r k * rowOf x1 r k)) := by
  rw [val_main_v10_apply, val_main_v7_apply, val_main_v9_apply, val_main_v6_apply, val_main_v8_apply]
  have e6 : idx_main_v6 (ix2 r k) = ix2 r (0 : Fin 1) :=
    funext fun a => Fin.ext (by match a with | ⟨0, _⟩ => rfl | ⟨1, _⟩ => rfl)
  have e8 : idx_main_v8 (ix2 r k) = ix2 r (0 : Fin 1) :=
    funext fun a => Fin.ext (by match a with | ⟨0, _⟩ => rfl | ⟨1, _⟩ => rfl)
  rw [e6, e8, norm0_apply, norm1_apply]
  rfl

/-- A row's cosine as the reference computes it: the inner product of the two normalised rows. -/
theorem rowcos_apply (x0 x1 : Arr) (r : Fin 1048576) :
    val_main_v11 (F := Ideal) x0 x1 (ix1 r) = cosNormed (rowOf x0 r) (rowOf x1 r) := by
  rw [val_main_v11_apply, val_main_cst_1_apply]
  simp only [Ideal.ofBits_def, Ideal.ofBits_zero_f32, zero_add]
  unfold cosNormed
  refine Finset.sum_congr rfl fun k _ => ?_
  have e : idx_main_v11 (ix1 r) k = ix2 r k :=
    funext fun a => Fin.ext (by match a with | ⟨0, _⟩ => rfl | ⟨1, _⟩ => rfl)
  rw [e, prod_apply]

/-- The reference's result: the sum of the rows' cosines (each the inner product of the normalised rows) over the
    number of rows. -/
theorem result_apply (x0 x1 : Arr) (i : S_.Idx) :
    val_main_v13 (F := Ideal) x0 x1 i
      = Ideal.div (∑ r : Fin 1048576, cosNormed (rowOf x0 r) (rowOf x1 r)) (Ideal.ofBits .f32 0x49800000#32) := by
  rw [val_main_v13_apply, val_main_v12_apply, val_main_cst_3_apply, val_main_cst_2_apply]
  simp only [Ideal.hostDivf_def, Ideal.ofBits_def, Ideal.ofBits_zero_f32, zero_add]
  refine div_congr_left _ ((sum_idx1 _).trans ?_)
  exact Finset.sum_congr rfl fun r _ => rowcos_apply x0 x1 r

/-- On arrays of reals the reference's result is the mean cosine: row by row, the inner product of the normalised
    rows is the quotient of the inner product by the product of the clamped norms. -/
theorem result_eq (x0 x1 : Arr) (h0 : ∀ j, ∃ a : ℝ, x0 j = (a : EReal)) (h1 : ∀ j, ∃ b : ℝ, x1 j = (b : EReal)) :
    val_main_v13 (F := Ideal) x0 x1 = meanCos x0 x1 := by
  funext i
  rw [result_apply]
  unfold meanCos totalCos
  refine div_congr_left _ (Finset.sum_congr rfl fun r _ => ?_)
  exact cosNormed_eq_cosQuot _ _ (fun k => h0 _) (fun k => h1 _)

end Cert.ReferenceIdeal.RefValue

end
-- ==== Proof.Finite.lean ====
/-
  What the precondition says: it is the conjunction, over both argument arrays, of "every entry's absolute value is
  below +∞". An extended real whose absolute value `max x (-x)` is below `⊤` is neither `⊤` nor `⊥`: it is a real.
-/
import proofs.«110248_j74002286510639_1_alg».proof.Pre_finite_inputs
import proofs.«110248_j74002286510639_1_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Finite

open Cert.Pre_finite_inputs Cert.Pre_finite_inputs.Facts
open Idealize.ShloMosaic Idealize.ShloMosaic.ValueIdx

/-- The pattern of `+∞` denotes `⊤`. -/
theorem inf_bits : Ideal.ofBits .f32 0x7F800000#32 = ⊤ := by
  simp [Ideal.ofBits, Ideal.ieee]

/-- The rank-0 index set has one index. -/
instance : Subsingleton S_.Idx := ⟨fun _ _ => funext fun d => d.elim0⟩

/-- An extended real whose absolute value is below `⊤` is a real. -/
theorem real_of_abs_lt_top (x : EReal) (h : max x (-x) < ⊤) : ∃ r : ℝ, x = (r : EReal) := by
  induction x using EReal.rec with
  | bot => simp at h
  | top => simp at h
  | coe r => exact ⟨r, rfl⟩

/-- One conjunct: if "every entry's absolute value is below +∞" holds of an array, every entry is a real. The reduction
    by `and` over all indices is 1 only if every compared entry gave 1, and the comparison at an entry is
    `max x (-x) < ⊤`. -/
theorem all_real (x : FVec Ideal S1048576x128 .f32)
    (hx : Host.reduce IntOp.andi
        (cmpf .olt (Host.absf x) (broadcastInDim S1048576x128 ![] bcast_S_S1048576x128 (constant (F := Ideal) S_ .f32 0x7F800000#32)))
        (constantI S_ 1 1#1) reducesTo_S1048576x128_S_d0_1 h_S_ ix0 = 1#1) (i : S1048576x128.Idx) :
    ∃ r : ℝ, x i = (r : EReal) := by
  have e := Host.reduce_andi_all _ _ _ _ ix0 hx i
  have e' : Ideal.cmp .olt (max (x i) (-(x i))) (Ideal.ofBits .f32 0x7F800000#32) = 1#1 := e
  rw [inf_bits] at e'
  have e2 : BitVec.ofBool (decide (max (x i) (-(x i)) < (⊤ : EReal))) = 1#1 := e'
  refine real_of_abs_lt_top _ ?_
  by_contra hn
  rw [decide_eq_false hn] at e2
  exact absurd e2 (by decide)

/-- Under the precondition every entry of both argument arrays is a real. -/
theorem entries_real (a b : FVec Ideal S1048576x128 .f32) (h : fn (F := Ideal) a b = fun _ => 1#1) :
    (∀ i, ∃ r : ℝ, a i = (r : EReal)) ∧ (∀ i, ∃ r : ℝ, b i = (r : EReal)) := by
  have h0 := congrFun h ix0
  dsimp only [fn] at h0
  obtain ⟨ha, hb⟩ := IntOp.andi_eq_one.1 h0
  exact ⟨all_real a ha, all_real b hb⟩

end Cert.Pre_finite_inputs.Finite

end
-- ==== Proof.lean ====
/-
  The mean cosine similarity of the rows of two arrays `A, B` of 1048576 rows by 128 lanes,

      (1 / N) ∑ᵣ  ⟨Aᵣ, Bᵣ⟩ / (max ‖Aᵣ‖ ε · max ‖Bᵣ‖ ε),        N = 2²⁰,  ε the f32 nearest 10⁻¹²,

  computed two ways. The kernel streams 128 blocks of 8192 rows, forms each row's quotient of the inner product by the
  product of the clamped norms, and adds each block's sum of quotients to a one-entry running total that it resets at
  the first block and writes out after the last; the host then divides by `N`. The reference divides each row by its
  clamped norm first, takes the inner products of the normalised rows, sums them all at once and divides by `N`.

  Over the extended reals the two agree wherever every entry is a real, which is what the precondition says:
  then both clamped norms are positive reals, `∑ₖ (aₖ/‖a‖)(bₖ/‖b‖) = (∑ₖ aₖ bₖ)/(‖a‖‖b‖)` is the distributive law in
  ℝ (Proof/RowLaw.lean), and summing 1048576 rows at once or in 128 blocks of 8192 into a running total is the same
  sum (commutativity and associativity of `+`). `ε` and `N` are the same words in both programs; of `ε` only its being a
  positive real is used, of `N` nothing.

  The three programs' runs: the two kernel programs' frames are the generated ones; the idealized kernel's value is
  read off its generated frame run (Proof/KernelPieces … KernelRun.lean); the reference's run and its stages read at an
  index are the generated ones (Proof/RefCosine.lean joins them to the row law). The ideal pass rewrote nothing, so
  `preserves` is `True`.
-/
import proofs.«110248_j74002286510639_1_alg».proof.Defs
import proofs.«110248_j74002286510639_1_alg».proof.Proof.Gen.Kernel
import proofs.«110248_j74002286510639_1_alg».proof.Proof.Gen.Kernel.Skeleton
import proofs.«110248_j74002286510639_1_alg».proof.Proof.Gen.Kernel.Launch
import proofs.«110248_j74002286510639_1_alg».proof.Proof.Gen.Kernel.Points
import proofs.«110248_j74002286510639_1_alg».proof.Proof.Gen.Kernel.Frame
import proofs.«110248_j74002286510639_1_alg».proof.Proof.Gen.KernelIdeal
import proofs.«110248_j74002286510639_1_alg».proof.Proof.Gen.KernelIdeal.Skeleton
import proofs.«110248_j74002286510639_1_alg».proof.Proof.Gen.KernelIdeal.Launch
import proofs.«110248_j74002286510639_1_alg».proof.Proof.Gen.KernelIdeal.Points
import proofs.«110248_j74002286510639_1_alg».proof.Proof.Gen.KernelIdeal.Frame
import proofs.«110248_j74002286510639_1_alg».proof.Proof.Gen.ReferenceIdeal
import proofs.«110248_j74002286510639_1_alg».proof.Proof.Gen.Pre_finite_inputs
import proofs.«110248_j74002286510639_1_alg».proof.Proof.KernelRun
import proofs.«110248_j74002286510639_1_alg».proof.Proof.RefCosine
import proofs.«110248_j74002286510639_1_alg».proof.Proof.Finite
import Idealize.ShloMosaic.Adequacy
import Idealize.ShloMosaic.Init

noncomputable section

namespace Cert.Proof

open Idealize.ShloMosaic Idealize.SL.Sem

/-- The word-level kernel program runs and keeps its arguments: the generated frame. -/
theorem frame_k : Cert.frame_Kernel := fun m ρ _ => Cert.Kernel.Gen.frame m ρ

/-- The idealized kernel program likewise. -/
theorem frame_ki : Cert.frame_KernelIdeal := fun m ρ _ => Cert.KernelIdeal.Gen.frame m ρ

/-- The reference runs and keeps its arguments: its generated run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the two arrays, every entry a real: the kernel program ends with the mean cosine of the
    arrays, the reference with the sum of the normalised rows' inner products over `N`, and these are one value. -/
theorem algebraic : Cert.algebraic_KernelIdeal_ReferenceIdeal := by
  intro m ρ m' ρ' hpre hagree
  refine ⟨fun c => Cert.Cosine.meanCos (Cert.KernelIdeal.Blocks.arrA m c) (Cert.KernelIdeal.Blocks.arrB m c),
    Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  obtain ⟨ha, hb⟩ := Cert.Pre_finite_inputs.Finite.entries_real _ _ (hpre c)
  rw [Cert.ReferenceIdeal.Read.val_main_v13_eq, (hagree c).1, (hagree c).2]
  exact Cert.ReferenceIdeal.RefValue.result_eq _ _ ha hb

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
